-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x8x8 : Shape := ⟨4, ![8, 16384, 8, 8]⟩
abbrev S_ : Shape := ⟨0, ![]⟩

class Facts : Prop where
  bcast_S_S8x16384x8x8 : S_.BroadcastsInDim S8x16384x8x8 (![] : Fin 0 → Fin S8x16384x8x8.rank)
  reducesTo_S8x16384x8x8_S_d0_1_2_3 : S8x16384x8x8.ReducesTo [0, 1, 2, 3] S_
  h_S_ : 0 < S_.numel

variable [Facts]

def fn {F : FTy → Type} [FloatOps F] (main_arg0 : FVec F S8x16384x8x8 .f32) (main_arg1 : FVec F S8x16384x8x8 .f32) : IVec S_ 1 :=
  let main_v0 : FVec F S8x16384x8x8 .f32 := Host.absf main_arg0
  let main_cst : FVec F S_ .f32 := constant S_ .f32 0x7F800000#32
  let main_v1 : FVec F S8x16384x8x8 .f32 := broadcastInDim S8x16384x8x8 ![] bcast_S_S8x16384x8x8 main_cst
  let main_v2 : IVec S8x16384x8x8 1 := cmpf .olt main_v0 main_v1
  let main_c : IVec S_ 1 := constantI S_ 1 1#1
  let main_v3 : IVec S_ 1 := (fun x v => Host.reduce IntOp.andi x v reducesTo_S8x16384x8x8_S_d0_1_2_3 h_S_) main_v2 main_c
  let main_v4 : FVec F S8x16384x8x8 .f32 := Host.absf main_arg1
  let main_cst_0 : FVec F S_ .f32 := constant S_ .f32 0x7F800000#32
  let main_v5 : FVec F S8x16384x8x8 .f32 := broadcastInDim S8x16384x8x8 ![] bcast_S_S8x16384x8x8 main_cst_0
  let main_v6 : IVec S8x16384x8x8 1 := cmpf .olt main_v4 main_v5
  let main_c_1 : IVec S_ 1 := constantI S_ 1 1#1
  let main_v7 : IVec S_ 1 := (fun x v => Host.reduce IntOp.andi x v reducesTo_S8x16384x8x8_S_d0_1_2_3 h_S_) main_v6 main_c_1
  let main_v8 : IVec S_ 1 := andi main_v3 main_v7
  main_v8
-- ==== Kernel.lean ====
abbrev S8x16384x8x8 : Shape := ⟨4, ![8, 16384, 8, 8]⟩
abbrev S131072x64 : Shape := ⟨2, ![131072, 64]⟩
abbrev S1x1 : Shape := ⟨2, ![1, 1]⟩
abbrev S4096x64 : Shape := ⟨2, ![4096, 64]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8x16384x8x8, .f32⟩
  | .hbm, ⟨1, _⟩ => ⟨S8x16384x8x8, .f32⟩
  | .hbm, ⟨2, _⟩ => ⟨S131072x64, .f32⟩
  | .hbm, ⟨3, _⟩ => ⟨S131072x64, .f32⟩
  | .hbm, ⟨4, _⟩ => ⟨S1x1, .f32⟩
  | .hbm, ⟨5, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S1x1, .f32⟩
  | .local _ .vmem, ⟨5, _⟩ => ⟨S1x1, .f32⟩
  | _, _ => ⟨S8x16384x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v41 : BitVec 1 := Scalar.cmpi .eq arg0 c31_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8x16384x8x8_S131072x64 : S8x16384x8x8.ShapeCasts S131072x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S131072x64.size a
  hwx0_1 : ∀ i : grid0.Coords, EltTy.bits .f32 = 32 ∨ (Rect.block (s := S131072x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x16384x8x8 : Shape := ⟨4, ![8, 16384, 8, 8]⟩
abbrev S_ : Shape := ⟨0, ![]⟩
abbrev S8x16384 : Shape := ⟨2, ![8, 16384]⟩
abbrev S8x16384x1x1 : Shape := ⟨4, ![8, 16384, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x16384x8x8, .f32⟩
  | .hbm, ⟨1, _⟩ => ⟨S8x16384x8x8, .f32⟩
  | .hbm, ⟨2, _⟩ => ⟨S_, .f32⟩
  | .hbm, ⟨3, _⟩ => ⟨S8x16384x8x8, .f32⟩
  | .hbm, ⟨4, _⟩ => ⟨S8x16384x8x8, .f32⟩
  | .hbm, ⟨5, _⟩ => ⟨S8x16384x8x8, .f32⟩
  | .hbm, ⟨6, _⟩ => ⟨S_, .f32⟩
  | .hbm, ⟨7, _⟩ => ⟨S8x16384x8x8, .f32⟩
  | .hbm, ⟨8, _⟩ => ⟨S8x16384x8x8, .f32⟩
  | .hbm, ⟨9, _⟩ => ⟨S8x16384x8x8, .f32⟩
  | .hbm, ⟨10, _⟩ => ⟨S_, .f32⟩
  | .hbm, ⟨11, _⟩ => ⟨S8x16384x8x8, .f32⟩
  | .hbm, ⟨12, _⟩ => ⟨S8x16384x8x8, .f32⟩
  | .hbm, ⟨13, _⟩ => ⟨S8x16384x8x8, .f32⟩
  | .hbm, ⟨14, _⟩ => ⟨S_, .f32⟩
  | .hbm, ⟨15, _⟩ => ⟨S8x16384x8x8, .f32⟩
  | .hbm, ⟨16, _⟩ => ⟨S8x16384x8x8, .f32⟩
  | .hbm, ⟨17, _⟩ => ⟨S8x16384x8x8, .f32⟩
  | .hbm, ⟨18, _⟩ => ⟨S8x16384x8x8, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S_, .f32⟩
  | .hbm, ⟨25, _⟩ => ⟨S8x16384, .f32⟩
  | .hbm, ⟨26, _⟩ => ⟨S8x16384, .f32⟩
  | .hbm, ⟨27, _⟩ => ⟨S8x16384x1x1, .f32⟩
  | .hbm, ⟨28, _⟩ => ⟨S8x16384x8x8, .f32⟩
  | .hbm, ⟨29, _⟩ => ⟨S8x16384x8x8, .f32⟩
  | .hbm, ⟨30, _⟩ => ⟨S8x16384x8x8, .f32⟩
  | .hbm, ⟨31, _⟩ => ⟨S8x16384x8x8, .f32⟩
  | .hbm, ⟨32, _⟩ => ⟨S_, .f32⟩
  | .hbm, ⟨33, _⟩ => ⟨S8x16384, .f32⟩
  | .hbm, ⟨34, _⟩ => ⟨S8x16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8x16384x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S8x16384x8x8 : S_.BroadcastsInDim S8x16384x8x8 (![] : Fin 0 → Fin S8x16384x8x8.rank)
  reducesTo_S8x16384x8x8_S8x16384_d2_3 : S8x16384x8x8.ReducesTo [2, 3] S8x16384
  h_S_ : 0 < S_.numel
  bcast_S_S8x16384 : S_.BroadcastsInDim S8x16384 (![] : Fin 0 → Fin S8x16384.rank)
  bcast_S8x16384_S8x16384x1x1_0_1 : S8x16384.BroadcastsInDim S8x16384x1x1 (![0, 1] : Fin 2 → Fin S8x16384x1x1.rank)
  bcast_S8x16384x1x1_S8x16384x8x8_0_1_2_3 : S8x16384x1x1.BroadcastsInDim S8x16384x8x8 (![0, 1, 2, 3] : Fin 4 → Fin S8x16384x8x8.rank)
  reducesTo_S8x16384_S_d0_1 : S8x16384.ReducesTo [0, 1] S_

variable [Facts₀]

class Facts : Prop extends Facts₀ where

variable [Facts]
-- ==== Proof.Pieces.lean ====
/-
  What each control case of the kernel body leaves behind, as values.

  The body keeps one running total in a scratch cell. At the first grid point the cell is set to zero and the point's
  block total is added to it; at every later point the block total is added to what the point before left; at the
  last point the output cell receives the running total divided by the number of areas. Each statement below reads
  one case's stores back: the last store into a cell is what the cell holds, and a load that follows a store of the
  whole cell reads what was stored.
-/
import proofs.«143264_j87960930222390_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

/-- The zero offsets of a whole-cell access. -/
theorem hz : (![0, 0] : Fin 2 → Nat) = fun _ => 0 := funext fun a => by fin_cases a <;> rfl

/-- First point: the scratch cell ends at the block total added to the stored zero. -/
theorem scratch_A (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S4096x64 .f32) (x1 : Vec F S4096x64 .f32) :
    sout0_A_0 c i arg1 harg1 arg2 harg2 arg3 harg3 arg4 harg4 hc0 hc1 x0 x1 = k0_pay1 (k0_pay4 x0 x1 (k0_pay3 (F := F))) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, harg2.read_unread, harg4.read_unread, View.ld_unit_zero (S := S4096x64) hz, View.ld_unit_zero (S := S1x1) hz]

/-- A middle point: the scratch cell ends at the block total added to what the point before left. -/
theorem scratch_B (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S4096x64 .f32) (x1 : Vec F S4096x64 .f32) (xs0 : Vec F S1x1 .f32) :
    sout0_B_0 c i arg1 harg1 arg2 harg2 arg3 harg3 arg4 harg4 hc0 hc1 x0 x1 xs0 = k0_pay1 (k0_pay4 x0 x1 xs0) := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread, View.ld_unit_zero (S := S4096x64) hz, View.ld_unit_zero (S := S1x1) hz]

/-- The last point: the scratch cell likewise, -/
theorem scratch_C (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S4096x64 .f32) (x1 : Vec F S4096x64 .f32) (xs0 : Vec F S1x1 .f32) :
    sout0_C_0 c i arg1 harg1 arg2 harg2 arg3 harg3 arg4 harg4 hc0 hc1 x0 x1 xs0 = k0_pay1 (k0_pay4 x0 x1 xs0) := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread, View.ld_unit_zero (S := S4096x64) hz, View.ld_unit_zero (S := S1x1) hz]

/-- and the output cell receives the quotient of the scratch cell's new contents. -/
theorem out_C (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S4096x64 .f32) (x1 : Vec F S4096x64 .f32) (xs0 : Vec F S1x1 .f32) :
    out0_C_2 c i arg1 harg1 arg2 harg2 arg3 harg3 arg4 harg4 hc0 hc1 x0 x1 xs0 = k0_pay2 (k0_pay1 (k0_pay4 x0 x1 xs0)) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz, View.readCov_unit_zero (S := S1x1) _ hz]
  simp only [View.readAt_eq_ld, harg1.read_unread, harg2.read_unread, harg4.read_unread, View.ld_unit_zero (S := S4096x64) hz, View.ld_unit_zero (S := S1x1) hz]

end Cert.KernelIdeal.Pieces

end
-- ==== Proof.Spec.lean ====
/-
  The mathematics of the masked area variance, over the extended reals.

  A mask value x is sharpened twice by the soft rounding x ↦ x - sin (2π·x) / (2π). For one area with image
  values a and sharpened mask values w (any finite index set), with s = Σ w + ε and mean μ = (Σ a·w) / s, the
  area's variance is (Σ ((a·w - μ)·w)²) / s. The loss is the sum of the variances of all areas divided by their
  number.

  Two facts about finite sums close the comparison of a tiled evaluation with a whole one:
  a sum over m·n consecutive positions is the sum over m tiles of the sum over the n positions of each tile, and
  the variance of an area does not depend on how its pixels are enumerated.
-/
import Idealize.ShloMosaic.PureOps.Ideal.Laws
import Idealize.ShloMosaic.Lib.ValueIdx

noncomputable section

namespace AreaVar

open Idealize.ShloMosaic Idealize.ShloMosaic.ValueIdx
open scoped BigOperators

/-- The f32 word nearest 2π, as both programs write it. -/
abbrev twoPi : EReal := Ideal.ofBits .f32 0x40C90FDB#32
/-- The f32 word nearest 1e-8 added to a mask sum. -/
abbrev eps : EReal := Ideal.ofBits .f32 0x322BCC77#32
/-- The number of areas, 131072, an exact f32. -/
abbrev cnt : EReal := Ideal.ofBits .f32 0x48000000#32

/-- One soft rounding: x - sin (2π·x) / (2π). -/
def soft (x : EReal) : EReal := x - Ideal.div (Ideal.sin (twoPi * x)) twoPi

/-- The sharpened mask value: the soft rounding applied twice. -/
def sharp (x : EReal) : EReal := soft (soft x)

variable {ι κ : Type} [Fintype ι] [Fintype κ]

/-- The mask sum of an area plus ε. -/
def msum (msk : ι → EReal) : EReal := (∑ k, sharp (msk k)) + eps

/-- The masked mean of an area. -/
def mean (img msk : ι → EReal) : EReal := Ideal.div (∑ k, img k * sharp (msk k)) (msum msk)

/-- One pixel's weighted deviation from the masked mean. -/
def dev (img msk : ι → EReal) (k : ι) : EReal := (img k * sharp (msk k) - mean img msk) * sharp (msk k)

/-- The masked variance of one area. -/
def areaVar (img msk : ι → EReal) : EReal :=
  Ideal.div (∑ k, dev img msk k * dev img msk k) (msum msk)

/-- The variance does not depend on the enumeration of the pixels. -/
theorem areaVar_comp (e : ι ≃ κ) (img msk : κ → EReal) :
    areaVar (fun k => img (e k)) (fun k => msk (e k)) = areaVar img msk := by
  have hs : msum (fun k => msk (e k)) = msum msk := by
    unfold msum; rw [Equiv.sum_comp e (fun k => sharp (msk k))]
  have hm : mean (fun k => img (e k)) (fun k => msk (e k)) = mean img msk := by
    unfold mean; rw [hs, Equiv.sum_comp e (fun k => img k * sharp (msk k))]
  unfold areaVar
  rw [hs]
  congr 1
  rw [← Equiv.sum_comp e (fun k => dev img msk k * dev img msk k)]
  refine Finset.sum_congr rfl fun k _ => ?_
  unfold dev
  rw [hm]

/-- A sum over m·n consecutive positions, tile by tile: m tiles of n positions each. -/
theorem sum_tiles {M : Type} [AddCommMonoid M] (m n : ℕ) (f : ℕ → M) :
    ∑ a : Fin m, ∑ b : Fin n, f (a.val * n + b.val) = ∑ k ∈ Finset.range (m * n), f k := by
  rw [Finset.sum_range, ← Equiv.sum_comp finProdFinEquiv (fun k : Fin (m * n) => f k.val), Fintype.sum_prod_type]
  refine Finset.sum_congr rfl fun a _ => Finset.sum_congr rfl fun b _ => ?_
  rw [finProdFinEquiv_apply_val, Nat.add_comm, Nat.mul_comm]

/-- The running sum of the first n + 1 terms, accumulated in order from zero. -/
theorem range_succ_fold {M : Type} [AddCommMonoid M] (f : ℕ → M) (n : ℕ) :
    ∑ t ∈ Finset.range (n + 1 + 1), f t = (∑ t ∈ Finset.range (n + 1), f t) + f (n + 1) :=
  Finset.sum_range_succ f (n + 1)

end AreaVar

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.Payload.lean ====
/-
  The kernel body's arithmetic at the extended reals.

  One grid point holds 4096 areas of 64 pixels each: row r of the image block and of the mask block are the pixels of
  one area. The body sharpens the mask block, forms per row the mask sum plus ε, the masked mean and the masked
  variance, sums the 4096 variances and adds the sum to the running total it is given. The stored zero is the real
  zero, and the last point's quotient divides the running total by the number of areas.
-/
import proofs.«143264_j87960930222390_1_alg».proof.Proof.Gen.KernelIdeal.Skeleton
import proofs.«143264_j87960930222390_1_alg».proof.Proof.Spec
import proofs.«143264_j87960930222390_1_alg».proof.Proof.LibPlainDot
import Idealize.ShloMosaic.Lib.Pipeline.Value

noncomputable section

open Idealize.ShloMosaic Idealize.ShloMosaic.ValueIdx Idealize.ShloMosaic.PlainDot
open scoped BigOperators

namespace Cert.KernelIdeal.Payload

open Cert.KernelIdeal Cert.KernelIdeal.Gen AreaVar

/-- A sum of an [R, C] matrix along axis 0, at column p: the sum over the rows r of the entries (r, p). -/
theorem colSum_apply {R C : Nat} {φ : FTy} (src : FVec Ideal (⟨2, ![R, C]⟩ : Shape) φ) (acc : BitVec φ.bits)
    (h : Shape.Reduces (⟨2, ![R, C]⟩ : Shape) [0] (⟨1, ![C]⟩ : Shape)) (hφ : FKind.Formats φ)
    (hacc : acc = FKind.add.neutral φ hφ) (p : Fin C) :
    multiReduction .add [0] (⟨1, ![C]⟩ : Shape) src acc h hφ hacc (ix1 p) = ∑ r : Fin R, (src (ix2 r p) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- The same for an f32 sum started from the zero word. -/
theorem colSum0 {R C : Nat} (src : FVec Ideal (⟨2, ![R, C]⟩ : Shape) .f32)
    (h : Shape.Reduces (⟨2, ![R, C]⟩ : Shape) [0] (⟨1, ![C]⟩ : Shape))
    (hφ : FTy.f32 = FTy.f32 ∨ FTy.f32 = FTy.bf16) (hacc : (0#32 : BitVec 32) = 0#32) (p : Fin C) :
    multiReduction .add [0] (⟨1, ![C]⟩ : Shape) src 0#32 h hφ hacc (ix1 p) = ∑ r : Fin R, (src (ix2 r p) : EReal) :=
  colSum_apply src 0#32 h hφ hacc p

/-- A sum of an [R, C] f32 matrix along axis 1 started from the zero word, at row p: the sum over k of the entries (p, k). -/
theorem rowSum0 {R C : Nat} (src : FVec Ideal (⟨2, ![R, C]⟩ : Shape) .f32)
    (h : Shape.Reduces (⟨2, ![R, C]⟩ : Shape) [1] (⟨1, ![R]⟩ : Shape))
    (hφ : FTy.f32 = FTy.f32 ∨ FTy.f32 = FTy.bf16) (hacc : (0#32 : BitVec 32) = 0#32) (p : Fin R) :
    multiReduction .add [1] (⟨1, ![R]⟩ : Shape) src 0#32 h hφ hacc (ix1 p) = ∑ k : Fin C, (src (ix2 p k) : EReal) :=
  rowSum_apply src 0#32 h hφ hacc p

/-- The sine of a vector, entry by entry. -/
theorem sin_apply {s : Shape} {φ : FTy} (v : FVec Ideal s φ) (i : s.Idx) : sin v i = Ideal.sin (v i) := rfl

/-- The one index of a 1 × 1 cell. -/
theorem cell_eq (j : S1x1.Idx) : j = ix2 (0 : Fin 1) (0 : Fin 1) := by
  funext a
  apply Fin.ext
  match a with
  | ⟨0, _⟩ => have h : (j 0).val < 1 := (j 0).isLt; show (j 0).val = 0; omega
  | ⟨1, _⟩ => have h : (j 1).val < 1 := (j 1).isLt; show (j 1).val = 0; omega

/-- The copy stored back into the scratch cell is the value itself. -/
theorem pay1_eq (v : FVec Ideal S1x1 .f32) : k0_pay1 (F := Ideal) v = v := by
  unfold k0_pay1; exact shapeCast_self _ _

/-- The stored zero is the real zero. -/
theorem pay3_eq : k0_pay3 (F := Ideal) = fun _ => (0 : EReal) := by
  unfold k0_pay3
  funext j
  rw [shapeCast_self]
  exact Ideal.ofBits_zero_f32

/-- The output cell's value: the running total divided by the number of areas. -/
theorem pay2_eq (v : Vec Ideal S1x1 .f32) : k0_pay2 (F := Ideal) v = fun j => Ideal.div (v j) cnt := rfl

/-- The running total after a point: what it was given plus the sum over the block's 4096 rows of the row's variance. -/
theorem pay4_eq (x0 x1 : Vec Ideal S4096x64 .f32) (acc : Vec Ideal S1x1 .f32) :
    k0_pay4 (F := Ideal) x0 x1 acc
      = fun j => acc j + ∑ r : Fin 4096, areaVar (fun k : Fin 64 => x0 (ix2 r k)) (fun k : Fin 64 => x1 (ix2 r k)) := by
  funext j
  obtain rfl := cell_eq j
  unfold k0_pay4
  simp only [shapeCast_self, addf_apply, shapeCast_a_a1_apply]
  rw [colSum0]
  refine congrArg (acc (ix2 0 0) + ·) (Finset.sum_congr rfl fun r _ => ?_)
  simp only [divf_apply, addf_apply, shapeCast_a_a1_apply, broadcast_apply]
  rw [rowSum0, rowSum0]
  simp only [mulf_apply, subf_apply, divf_apply, addf_apply, broadcast_apply, sin_apply, broadcastTo_a1_ab_apply,
    shapeCast_a_a1_apply]
  rw [rowSum0, rowSum0]
  simp only [mulf_apply, subf_apply, divf_apply, broadcast_apply, sin_apply]
  rfl

end Cert.KernelIdeal.Payload

end
-- ==== Proof.Fold.lean ====
/-
  The kernel's running total across the grid, and what the output cell and the result hold after the run.

  The scratch cell after grid point n holds the sum of the block totals of points 0 … n, accumulated in that order
  from zero. The output cell is written once, at the last point, with that sum over all 32 points divided by the
  number of areas; the one write-back covers the 1 × 1 result array, and the host's reshape hands its one entry on
  as the scalar result.
-/
import proofs.«143264_j87960930222390_1_alg».proof.Proof.Pieces
import proofs.«143264_j87960930222390_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Fold

open Cert.KernelIdeal Cert.KernelIdeal.Gen AreaVar

variable (m : (ℓ : Loc nD τ sig) → Buf (Elt Ideal) ℓ) (ρ : Dev nD → PrngReg)

/-- The image block and the mask block of grid point t, at their literal type. -/
abbrev imgBlk (c : Dev nD) (t : Fin cfg0.N) : Vec Ideal S4096x64 .f32 := iblk m c 0 t
abbrev mskBlk (c : Dev nD) (t : Fin cfg0.N) : Vec Ideal S4096x64 .f32 := iblk m c 1 t

/-- The block total of point t: the sum of the variances of its 4096 areas. -/
def blockTot (c : Dev nD) (t : Fin cfg0.N) : EReal :=
  ∑ r : Fin 4096, areaVar (fun k : Fin 64 => imgBlk m c t (ix2 r k)) (fun k : Fin 64 => mskBlk m c t (ix2 r k))

/-- The running total after point n, accumulated in point order from zero. -/
def running (c : Dev nD) : (n : ℕ) → n < cfg0.N → EReal
  | 0, h => 0 + blockTot m c ⟨0, h⟩
  | n + 1, h => running c n (Nat.lt_of_succ_lt h) + blockTot m c ⟨n + 1, h⟩

/-- The scratch cell after point n holds the running total. -/
theorem scratch_eq (c : Dev nD) : ∀ (n : ℕ) (h : n < cfg0.N), (outsAt0 m c n h).2 = fun _ => running m c n h
  | 0, h => by
    rw [outsAt0_A m c ⟨0, h⟩ (Nat.zero_mod _) (by dsimp only; omega)]
    dsimp only
    refine (Pieces.scratch_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (imgBlk m c ⟨0, h⟩) (mskBlk m c ⟨0, h⟩)).trans ?_
    rw [Payload.pay1_eq, Payload.pay4_eq, Payload.pay3_eq]
    rfl
  | n + 1, h => by
    have hN : cfg0.N = 32 := N_0
    have ih := scratch_eq c n (Nat.lt_of_succ_lt h)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (Pieces.scratch_C (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (imgBlk m c ⟨n + 1, h⟩) (mskBlk m c ⟨n + 1, h⟩)
        (outsAt0 m c n (Nat.lt_of_succ_lt h)).2).trans ?_
      rw [Payload.pay1_eq, Payload.pay4_eq, ih]
      rfl
    · rw [outsAt0_B m c ⟨n + 1, h⟩ h0 h1]
      dsimp only
      refine (Pieces.scratch_B (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (imgBlk m c ⟨n + 1, h⟩) (mskBlk m c ⟨n + 1, h⟩)
        (outsAt0 m c n (Nat.lt_of_succ_lt h)).2).trans ?_
      rw [Payload.pay1_eq, Payload.pay4_eq, ih]
      rfl

/-- The block total of the point numbered t, zero past the grid. -/
def tot (c : Dev nD) (t : ℕ) : EReal := if h : t < cfg0.N then blockTot m c ⟨t, h⟩ else 0

theorem tot_of_lt (c : Dev nD) (t : ℕ) (h : t < cfg0.N) : tot m c t = blockTot m c ⟨t, h⟩ := by
  unfold tot; exact dif_pos h

/-- The running total after point n is the sum of the first n + 1 block totals. -/
theorem running_eq (c : Dev nD) : ∀ (n : ℕ) (h : n < cfg0.N), running m c n h = ∑ t ∈ Finset.range (n + 1), tot m c t
  | 0, h => by
    show 0 + blockTot m c ⟨0, h⟩ = _
    rw [Finset.sum_range_one, zero_add, tot_of_lt m c 0 h]
  | n + 1, h => by
    show running m c n _ + blockTot m c ⟨n + 1, h⟩ = _
    rw [running_eq c n, Finset.sum_range_succ _ (n + 1), tot_of_lt m c (n + 1) h]

/-- The sum of all 32 block totals. -/
def total (c : Dev nD) : EReal := ∑ t ∈ Finset.range 32, tot m c t

/-- The last point, 31. -/
abbrev tLast : Fin cfg0.N := ⟨31, by rw [show cfg0.N = 32 from N_0]; decide⟩

/-- The output cell after the last point: the sum of all block totals divided by the number of areas. -/
theorem out_last (c : Dev nD) : (outsAt0 m c tLast.val tLast.isLt).1 = fun _ => Ideal.div (total m c) cnt := by
  have h0 : ¬tLast.val % 32 = 0 := by decide
  have h1 : tLast.val % 32 = 31 := rfl
  rw [outsAt0_C m c tLast h0 h1]
  dsimp only
  refine (Pieces.out_C (F := Ideal) c (grid0.coords tLast) (ms0_0 tLast) (hs0_0 tLast) (ms0_1 tLast) (hs0_1 tLast) (ms0_2 tLast) (hs0_2 tLast) scM0_0 (Memref.isWhole_whole _) _ _ (imgBlk m c tLast) (mskBlk m c tLast)
    (outsAt0 m c 30 (by rw [show cfg0.N = 32 from N_0]; decide)).2).trans ?_
  rw [Payload.pay2_eq, Payload.pay1_eq, Payload.pay4_eq, scratch_eq m c 30]
  funext j
  show Ideal.div (running m c 31 tLast.isLt) cnt = _
  rw [running_eq]
  rfl

/-- The contents the result array ends with. -/
abbrev outArr (c : Dev nD) : Buf (Elt Ideal) ((c : Thread nD τ).loc main_v2) := fun _ => Ideal.div (total m c) cnt

/-- The one write-back, at the last point, writes those contents. -/
theorem flushed_eq (c : Dev nD) (t : Fin cfg0.N) (hf : (cfg0.win 2).flush t = true) :
    (dats m 0 c).flushed 2 t = ((cfg0.win 2).blk t).view.read (Elt Ideal) (outArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last]
  funext y
  rfl

/-- The result array ends holding those contents: the last point's block is the whole 1 × 1 array. -/
theorem final_out (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The scalar result: the host's reshape of the 1 × 1 array hands on its one entry. -/
theorem tail_eq (c : Dev nD) :
    Pipeline.afterTail₀ cfgs (dats m) 0 (V0 m) [hostOps1] c main_v3 = fun _ => Ideal.div (total m c) cnt := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = outArr m c :=
    (Pipeline.withArrays_arr spec0 launch0.win.arr_inj c _ _ 2).trans (final_out m c)
  rw [e]
  funext i
  rfl

/-- The run, read: the scalar result at the sum of all block totals divided by the number of areas, the arguments
    unchanged. -/
theorem run : θ_run defs (onTc (τ := τ) (main (F := Ideal))) ⟨m, fun _ => 0, ρ⟩ fun r => ∀ c : Dev nD,
      r.2.mem ((c.tc : Thread nD τ).loc main_v3) = (fun _ => Ideal.div (total m c) cnt)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Fold

end
-- ==== Proof.Areas.lean ====
/-
  The areas by number.

  The 131072 areas are numbered row-major over [8, 16384]: area R is (R / 16384, R % 16384), and its pixel k is the
  entry (R / 16384, R % 16384, k / 8, k % 8) of an [8, 16384, 8, 8] array. Summing the areas' variances 4096 at a
  time over 32 tiles, or 16384 at a time over 8 batches, sums the same 131072 terms.
-/
import proofs.«143264_j87960930222390_1_alg».proof.Proof.Spec

noncomputable section

namespace AreaVar

open Idealize.ShloMosaic Idealize.ShloMosaic.ValueIdx
open scoped BigOperators

/-- The array index of pixel k of the area numbered R. -/
abbrev areaPix (R : ℕ) (hR : R < 131072) (k : Fin 64) : (⟨4, ![8, 16384, 8, 8]⟩ : Shape).Idx :=
  ix4 (⟨R / 16384, by omega⟩ : Fin 8) (⟨R % 16384, by omega⟩ : Fin 16384)
    (⟨k.val / 8, by have := k.isLt; omega⟩ : Fin 8) (⟨k.val % 8, by have := k.isLt; omega⟩ : Fin 8)

/-- The variance of the area numbered R of an image array and a mask array (zero past the last area). -/
def areaN (A M : (⟨4, ![8, 16384, 8, 8]⟩ : Shape).Idx → EReal) (R : ℕ) : EReal :=
  if h : R < 131072 then areaVar (fun k : Fin 64 => A (areaPix R h k)) (fun k : Fin 64 => M (areaPix R h k)) else 0

theorem areaN_of_lt (A M : (⟨4, ![8, 16384, 8, 8]⟩ : Shape).Idx → EReal) (R : ℕ) (h : R < 131072) :
    areaN A M R = areaVar (fun k : Fin 64 => A (areaPix R h k)) (fun k : Fin 64 => M (areaPix R h k)) := by
  unfold areaN; exact dif_pos h

/-- 32 tiles of 4096 areas and 8 batches of 16384 areas are the same 131072 areas. -/
theorem tiles_eq_batches (f : ℕ → EReal) :
    ∑ t ∈ Finset.range 32, ∑ r : Fin 4096, f (t * 4096 + r.val) = ∑ b : Fin 8, ∑ n : Fin 16384, f (b.val * 16384 + n.val) := by
  rw [Finset.sum_range (fun t => ∑ r : Fin 4096, f (t * 4096 + r.val)), sum_tiles 32 4096 f, sum_tiles 8 16384 f]

end AreaVar

end
-- ==== Proof.Blocks.lean ====
/-
  The grid's blocks as entries of the argument arrays.

  The host reshapes both [8, 16384, 8, 8] arguments to [131072, 64]: row R of a reshaped array is area R, its 64
  entries the area's pixels in order. Grid point t stages rows 4096·t … 4096·t + 4095, so row r of its block is
  area 4096·t + r, and the point's block total is the sum of those 4096 areas' variances.
-/
import proofs.«143264_j87960930222390_1_alg».proof.Proof.Fold
import proofs.«143264_j87960930222390_1_alg».proof.Proof.Areas

set_option maxRecDepth 16384

noncomputable section

open Idealize.ShloMosaic Idealize.ShloMosaic.TcCoe Idealize.SL.Sem Idealize.ShloMosaic.ValueIdx
open scoped BigOperators

namespace Cert.KernelIdeal.Blocks

open Cert.KernelIdeal Cert.KernelIdeal.Gen Cert.KernelIdeal.Fold AreaVar

variable (m : (ℓ : Loc nD τ sig) → Buf (Elt Ideal) ℓ)

/-- The image argument and the mask argument of core c. -/
abbrev imgArg (c : Dev nD) : S8x16384x8x8.Idx → EReal := m ((c : Thread nD τ).loc main_arg0)
abbrev mskArg (c : Dev nD) : S8x16384x8x8.Idx → EReal := m ((c : Thread nD τ).loc main_arg1)

/-- The region finds the reshaped image, -/
theorem V_img (c : Dev nD) :
    (V m c main_v0 : S131072x64.Idx → EReal) = shapeCast S131072x64 (imgArg m c) shapeCasts_S8x16384x8x8_S131072x64 := by
  show StableHlo.after hostOps0 (fun b => m (c, b)) (Proc.devRef .tc main_v0) = _
  after_results
  rfl

/-- and the reshaped mask. -/
theorem V_msk (c : Dev nD) :
    (V m c main_v1 : S131072x64.Idx → EReal) = shapeCast S131072x64 (mskArg m c) shapeCasts_S8x16384x8x8_S131072x64 := by
  show StableHlo.after hostOps0 (fun b => m (c, b)) (Proc.devRef .tc main_v1) = _
  after_results
  rfl

/-- Both input windows step one block of rows per grid point and stay at column block 0. -/
theorem idx_img : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_msk : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (R, k) of a reshaped array is pixel k of area R. -/
theorem reshaped_at (X : S8x16384x8x8.Idx → EReal) (R : ℕ) (hR : R < 131072) (k : Fin 64) (j : S131072x64.Idx)
    (h0 : (j 0).val = R) (h1 : (j 1).val = k.val) :
    shapeCast S131072x64 X shapeCasts_S8x16384x8x8_S131072x64 j = X (areaPix R hR k) := by
  refine shapeCast_apply X _ j (areaPix R hR k) ?_
  rw [Shape.rowMajor_val_four, Shape.rowMajor_val_two, h0, h1]
  show ((R / 16384 * 16384 + R % 16384) * 8 + k.val / 8) * 8 + k.val % 8 = R * 64 + k.val
  have := k.isLt
  omega

/-- Row r of the image block of point t is area 4096·t + r of the image argument, -/
theorem img_at (c : Dev nD) (t : Fin cfg0.N) (r : Fin 4096) (k : Fin 64) (hR : t.val * 4096 + r.val < 131072) :
    imgBlk m c t (ix2 r k) = imgArg m c (areaPix (t.val * 4096 + r.val) hR k) := by
  show V m c main_v0 (((cfg0.win 0).blk t).view.emb (ix2 r k)) = _
  rw [V_img]
  refine reshaped_at (imgArg m c) _ hR k _ ?_ ?_
  · show win0_0.index t 0 * 4096 + 1 * r.val = _
    rw [(idx_img t).1]; omega
  · show win0_0.index t 1 * 64 + 1 * k.val = _
    rw [(idx_img t).2]; omega

/-- and of the mask block likewise. -/
theorem msk_at (c : Dev nD) (t : Fin cfg0.N) (r : Fin 4096) (k : Fin 64) (hR : t.val * 4096 + r.val < 131072) :
    mskBlk m c t (ix2 r k) = mskArg m c (areaPix (t.val * 4096 + r.val) hR k) := by
  show V m c main_v1 (((cfg0.win 1).blk t).view.emb (ix2 r k)) = _
  rw [V_msk]
  refine reshaped_at (mskArg m c) _ hR k _ ?_ ?_
  · show win0_1.index t 0 * 4096 + 1 * r.val = _
    rw [(idx_msk t).1]; omega
  · show win0_1.index t 1 * 64 + 1 * k.val = _
    rw [(idx_msk t).2]; omega

/-- The block total of point t: the variances of areas 4096·t … 4096·t + 4095 of the arguments. -/
theorem tot_eq (c : Dev nD) (t : ℕ) (ht : t < 32) :
    tot m c t = ∑ r : Fin 4096, areaN (imgArg m c) (mskArg m c) (t * 4096 + r.val) := by
  have hN : cfg0.N = 32 := N_0
  rw [tot_of_lt m c t (by omega)]
  unfold blockTot
  refine Finset.sum_congr rfl fun r _ => ?_
  have hR : t * 4096 + r.val < 131072 := by have := r.isLt; omega
  rw [areaN_of_lt _ _ _ hR]
  congr 1
  · funext k; exact img_at m c ⟨t, by omega⟩ r k hR
  · funext k; exact msk_at m c ⟨t, by omega⟩ r k hR

/-- The sum of all block totals: all 131072 areas of the arguments, 16384 to a batch. -/
theorem total_eq (c : Dev nD) :
    total m c = ∑ b : Fin 8, ∑ n : Fin 16384, areaN (imgArg m c) (mskArg m c) (b.val * 16384 + n.val) := by
  unfold total
  rw [← tiles_eq_batches]
  exact Finset.sum_congr rfl fun t ht => tot_eq m c t (Finset.mem_range.mp ht)

end Cert.KernelIdeal.Blocks

end
-- ==== Proof.RefValue.lean ====
/-
  The reference at the extended reals, read area by area.

  The reference sharpens the whole mask, and for each area (b, n) sums over the area's 8 × 8 pixels: the mask sum
  plus ε, the masked mean, the masked variance. Pixel k of an area, k = 0 … 63, is the entry (b, n, k / 8, k % 8):
  the entries a sum over the two trailing axes collects at (b, n) are exactly these 64. The result is the sum of
  the variances of all areas divided by their number.
-/
import proofs.«143264_j87960930222390_1_alg».proof.Proof.Gen.ReferenceIdeal.Run
import proofs.«143264_j87960930222390_1_alg».proof.Proof.Gen.ReferenceIdeal.Read
import proofs.«143264_j87960930222390_1_alg».proof.Proof.Spec

noncomputable section

open Idealize.ShloMosaic Idealize.ShloMosaic.ValueIdx
open scoped BigOperators

namespace Cert.ReferenceIdeal.RefValue

open Cert.ReferenceIdeal Cert.ReferenceIdeal.Gen Cert.ReferenceIdeal.Read AreaVar

/-- Pixel k of area (b, n): row k / 8, column k % 8 of its patch. -/
abbrev pix (b : Fin 8) (n : Fin 16384) (k : Fin 64) : S8x16384x8x8.Idx :=
  ix4 b n (⟨k.val / 8, by have := k.isLt; omega⟩ : Fin 8) (⟨k.val % 8, by have := k.isLt; omega⟩ : Fin 8)

theorem pix_injective (b : Fin 8) (n : Fin 16384) : Function.Injective (pix b n) := fun k k' h => by
  have h2 : k.val / 8 = k'.val / 8 := congrArg Fin.val (congrFun h (2 : Fin 4))
  have h3 : k.val % 8 = k'.val % 8 := congrArg Fin.val (congrFun h (3 : Fin 4))
  exact Fin.ext (by omega)

/-- The 64 pixels of an area, as an embedding into the array's indices. -/
def pixEmb (b : Fin 8) (n : Fin 16384) : Fin 64 ↪ S8x16384x8x8.Idx := ⟨pix b n, pix_injective b n⟩

/-- Dropping the two trailing axes of a pixel's index leaves its area. -/
theorem drop_pix (b : Fin 8) (n : Fin 16384) (k : Fin 64) :
    reducesTo_S8x16384x8x8_S8x16384_d2_3.drop (pix b n k) = ix2 b n := by
  funext a
  apply Fin.ext
  match a with
  | ⟨0, _⟩ => exact Shape.ReducesTo.drop_apply_val_of_eq reducesTo_S8x16384x8x8_S8x16384_d2_3 (pix b n k) 0 0
  | ⟨1, _⟩ => exact Shape.ReducesTo.drop_apply_val_of_eq reducesTo_S8x16384x8x8_S8x16384_d2_3 (pix b n k) 1 1

/-- The indices that drop to (b, n) are the area's 64 pixels. -/
theorem filter_area (b : Fin 8) (n : Fin 16384) :
    Finset.univ.filter (fun i : S8x16384x8x8.Idx => reducesTo_S8x16384x8x8_S8x16384_d2_3.drop i = ix2 b n)
      = Finset.univ.map (pixEmb b n) := by
  ext i
  simp only [Finset.mem_filter, Finset.mem_univ, true_and, Finset.mem_map, pixEmb, Function.Embedding.coeFn_mk]
  constructor
  · intro h
    have e0 : (i 0).val = b.val :=
      (Shape.ReducesTo.drop_apply_val_of_eq reducesTo_S8x16384x8x8_S8x16384_d2_3 i 0 0).symm.trans
        (congrArg Fin.val (congrFun h (0 : Fin 2)))
    have e1 : (i 1).val = n.val :=
      (Shape.ReducesTo.drop_apply_val_of_eq reducesTo_S8x16384x8x8_S8x16384_d2_3 i 1 1).symm.trans
        (congrArg Fin.val (congrFun h (1 : Fin 2)))
    have l2 : (i 2).val < 8 := (i 2).isLt
    have l3 : (i 3).val < 8 := (i 3).isLt
    refine ⟨⟨(i 2).val * 8 + (i 3).val, by omega⟩, ?_⟩
    funext a
    apply Fin.ext
    match a with
    | ⟨0, _⟩ => exact e0.symm
    | ⟨1, _⟩ => exact e1.symm
    | ⟨2, _⟩ => show ((i 2).val * 8 + (i 3).val) / 8 = (i 2).val; omega
    | ⟨3, _⟩ => show ((i 2).val * 8 + (i 3).val) % 8 = (i 3).val; omega
  · rintro ⟨k, rfl⟩
    exact drop_pix b n k

/-- The host's sum over the two trailing axes, at area (b, n): the initial value plus the sum over the 64 pixels. -/
theorem areaSum (x : S8x16384x8x8.Idx → EReal) (init : EReal) (b : Fin 8) (n : Fin 16384) :
    Ideal.hostReduceAdd reducesTo_S8x16384x8x8_S8x16384_d2_3 x init (ix2 b n) = init + ∑ k : Fin 64, x (pix b n k) := by
  unfold Ideal.hostReduceAdd
  rw [filter_area, Finset.sum_map]
  rfl

section
variable (A M : (⟨S8x16384x8x8, .f32⟩ : BufTy).Contents (Elt Ideal))

/-- The sharpened mask, entry by entry. -/
theorem sharp_eq (i : S8x16384x8x8.Idx) : val_main_v11 (F := Ideal) M i = sharp (M i) := by
  simp only [val_main_v11_apply, val_main_v10_apply, val_main_v9_apply, val_main_cst_2_apply, val_main_v8_apply,
    val_main_v7_apply, val_main_v6_apply, val_main_cst_1_apply, val_main_v5_apply, val_main_v4_apply,
    val_main_v3_apply, val_main_cst_0_apply, val_main_v2_apply, val_main_v1_apply, val_main_v0_apply,
    val_main_cst_apply]
  rfl

/-- The masked image, entry by entry. -/
theorem masked_eq (i : S8x16384x8x8.Idx) : val_main_v12 (F := Ideal) A M i = A i * sharp (M i) := by
  rw [val_main_v12_apply, sharp_eq]; rfl

/-- The mask sum plus ε of area (b, n). -/
theorem msum_eq (b : Fin 8) (n : Fin 16384) :
    val_main_v15 (F := Ideal) M (ix2 b n) = msum (fun k : Fin 64 => M (pix b n k)) := by
  rw [val_main_v15_apply, val_main_v14_apply, val_main_cst_4_apply]
  unfold val_main_v13
  simp only [Host.reduceAdd, Ideal.hostReduceAdd_def]
  rw [areaSum]
  simp only [sharp_eq, val_main_cst_3_apply]
  show Ideal.ofBits .f32 0x00000000#32 + _ + eps = _
  rw [Ideal.ofBits_zero_f32, zero_add]
  rfl

/-- The masked mean of area (b, n). -/
theorem mean_eq (b : Fin 8) (n : Fin 16384) :
    val_main_v17 (F := Ideal) A M (ix2 b n) = mean (fun k : Fin 64 => A (pix b n k)) (fun k : Fin 64 => M (pix b n k)) := by
  rw [val_main_v17_apply, msum_eq]
  unfold val_main_v16
  simp only [Host.reduceAdd, Ideal.hostReduceAdd_def]
  rw [areaSum]
  simp only [masked_eq, val_main_cst_5_apply]
  show Ideal.div (Ideal.ofBits .f32 0x00000000#32 + _) _ = _
  rw [Ideal.ofBits_zero_f32, zero_add]
  rfl

/-- The area a pixel's broadcast mean is read from. -/
theorem area_of_pix (b : Fin 8) (n : Fin 16384) (k : Fin 64) :
    idx_main_v18 (idx_main_v19 (pix b n k)) = ix2 b n := by
  funext a
  match a with
  | ⟨0, _⟩ => rfl
  | ⟨1, _⟩ => rfl

/-- One pixel's weighted deviation. -/
theorem dev_eq (b : Fin 8) (n : Fin 16384) (k : Fin 64) :
    val_main_v21 (F := Ideal) A M (pix b n k)
      = dev (fun k : Fin 64 => A (pix b n k)) (fun k : Fin 64 => M (pix b n k)) k := by
  rw [val_main_v21_apply, val_main_v20_apply, val_main_v19_apply, val_main_v18_apply, area_of_pix, mean_eq, masked_eq,
    sharp_eq]
  rfl

/-- The masked variance of area (b, n). -/
theorem var_eq (b : Fin 8) (n : Fin 16384) :
    val_main_v24 (F := Ideal) A M (ix2 b n)
      = areaVar (fun k : Fin 64 => A (pix b n k)) (fun k : Fin 64 => M (pix b n k)) := by
  rw [val_main_v24_apply, msum_eq]
  unfold val_main_v23
  simp only [Host.reduceAdd, Ideal.hostReduceAdd_def]
  rw [areaSum]
  simp only [val_main_v22_apply, dev_eq, val_main_cst_6_apply]
  show Ideal.div (Ideal.ofBits .f32 0x00000000#32 + _) _ = _
  rw [Ideal.ofBits_zero_f32, zero_add]
  rfl

/-- The reference's result: the sum of all areas' variances divided by their number. -/
theorem result_eq :
    val_main_v26 (F := Ideal) A M
      = fun _ => Ideal.div (∑ b : Fin 8, ∑ n : Fin 16384,
          areaVar (fun k : Fin 64 => A (pix b n k)) (fun k : Fin 64 => M (pix b n k))) cnt := by
  funext i
  rw [val_main_v26_apply, val_main_v25_apply, val_main_cst_7_apply, val_main_cst_8_apply, sum_idx2]
  simp only [var_eq]
  show Ideal.div (Ideal.ofBits .f32 0x00000000#32 + _) cnt = _
  rw [Ideal.ofBits_zero_f32, zero_add]

end

end Cert.ReferenceIdeal.RefValue

end
-- ==== Proof.lean ====
/-
  The masked area variance loss, tiled against whole.

  Both programs sharpen a mask by two soft roundings x ↦ x - sin (2π·x) / (2π), and for each of the 131072 areas of
  64 pixels form the mask sum plus ε, the masked mean and the masked variance; the result is the sum of the variances
  divided by 131072. The same f32 words stand for 2π, ε and 131072 on both sides, and the sine, the quotient and the
  sums are the same functions of extended reals on both sides.

  The kernel walks the areas 4096 at a time over 32 grid points, keeps a running total in a scratch cell that starts
  at zero, and divides at the last point; the reference sums all areas at once. Over the extended reals addition is
  commutative and associative with zero its unit, so the running total after the last point is the sum over all
  areas, taken tile by tile: the two results agree whatever the inputs are, and finiteness of the inputs is not used.
-/
import proofs.«143264_j87960930222390_1_alg».proof.Defs
import proofs.«143264_j87960930222390_1_alg».proof.Proof.Gen.Kernel
import proofs.«143264_j87960930222390_1_alg».proof.Proof.Gen.Kernel.Skeleton
import proofs.«143264_j87960930222390_1_alg».proof.Proof.Gen.Kernel.Launch
import proofs.«143264_j87960930222390_1_alg».proof.Proof.Gen.Kernel.Points
import proofs.«143264_j87960930222390_1_alg».proof.Proof.Gen.Kernel.Frame
import proofs.«143264_j87960930222390_1_alg».proof.Proof.Gen.KernelIdeal
import proofs.«143264_j87960930222390_1_alg».proof.Proof.Gen.KernelIdeal.Skeleton
import proofs.«143264_j87960930222390_1_alg».proof.Proof.Gen.KernelIdeal.Launch
import proofs.«143264_j87960930222390_1_alg».proof.Proof.Gen.KernelIdeal.Points
import proofs.«143264_j87960930222390_1_alg».proof.Proof.Gen.KernelIdeal.Frame
import proofs.«143264_j87960930222390_1_alg».proof.Proof.Gen.ReferenceIdeal
import proofs.«143264_j87960930222390_1_alg».proof.Proof.Gen.ReferenceIdeal.Run
import proofs.«143264_j87960930222390_1_alg».proof.Proof.Gen.ReferenceIdeal.Read
import proofs.«143264_j87960930222390_1_alg».proof.Proof.Gen.Pre_finite_inputs
import proofs.«143264_j87960930222390_1_alg».proof.Proof.Blocks
import proofs.«143264_j87960930222390_1_alg».proof.Proof.RefValue
import Idealize.ShloMosaic.Adequacy
import Idealize.ShloMosaic.Init

noncomputable section

namespace Cert.Proof

open Idealize.ShloMosaic Idealize.SL.Sem Idealize.ShloMosaic.ValueIdx AreaVar
open scoped BigOperators

/-- Area (b, n) of the reference is the area numbered 16384·b + n. -/
theorem pix_eq (b : Fin 8) (n : Fin 16384) (k : Fin 64) (h : b.val * 16384 + n.val < 131072) :
    Cert.ReferenceIdeal.RefValue.pix b n k = areaPix (b.val * 16384 + n.val) h k := by
  funext a
  apply Fin.ext
  have hb := b.isLt
  have hn := n.isLt
  match a with
  | ⟨0, _⟩ => show b.val = (b.val * 16384 + n.val) / 16384; omega
  | ⟨1, _⟩ => show n.val = (b.val * 16384 + n.val) % 16384; omega
  | ⟨2, _⟩ => rfl
  | ⟨3, _⟩ => rfl

theorem area_eq (A M : (⟨4, ![8, 16384, 8, 8]⟩ : Shape).Idx → EReal) (b : Fin 8) (n : Fin 16384) :
    areaVar (fun k : Fin 64 => A (Cert.ReferenceIdeal.RefValue.pix b n k)) (fun k : Fin 64 => M (Cert.ReferenceIdeal.RefValue.pix b n k))
      = areaN A M (b.val * 16384 + n.val) := by
  have h : b.val * 16384 + n.val < 131072 := by have := b.isLt; have := n.isLt; omega
  rw [areaN_of_lt A M _ h]
  congr 1 <;> funext k <;> rw [pix_eq b n k h]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's scalar is the sum of the 32 block totals over 131072 and the reference's the sum of all areas'
    variances over 131072: the same 131072 terms. -/
theorem algebraic : Cert.algebraic_KernelIdeal_ReferenceIdeal := by
  intro m ρ m' ρ' _ hagree
  refine ⟨fun c => fun _ => Ideal.div (Cert.KernelIdeal.Fold.total m c) cnt, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v26 m' c = fun _ => Ideal.div (Cert.KernelIdeal.Fold.total m c) cnt
  rw [Cert.ReferenceIdeal.Read.val_main_v26_eq, Cert.ReferenceIdeal.RefValue.result_eq, (hagree c).1, (hagree c).2,
    Cert.KernelIdeal.Blocks.total_eq]
  funext _
  refine congrArg (Ideal.div · cnt) ?_
  exact Finset.sum_congr rfl fun b _ => Finset.sum_congr rfl fun n _ => area_eq _ _ b n

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
